-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x256x3 : Shape := ⟨3, ![1, 256, 3]⟩
abbrev S1x3x4096 : Shape := ⟨3, ![1, 3, 4096]⟩
abbrev S1x256x1 : Shape := ⟨3, ![1, 256, 1]⟩
abbrev S1x1x4096 : Shape := ⟨3, ![1, 1, 4096]⟩
abbrev S1x4096 : Shape := ⟨2, ![1, 4096]⟩
abbrev S256x3 : Shape := ⟨2, ![256, 3]⟩
abbrev S3x4096 : Shape := ⟨2, ![3, 4096]⟩
abbrev S256x1 : Shape := ⟨2, ![256, 1]⟩
abbrev S256x4096 : Shape := ⟨2, ![256, 4096]⟩
abbrev S256 : Shape := ⟨1, ![256]⟩
abbrev S4096 : Shape := ⟨1, ![4096]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_12 : BitVec 32 := 0#32
  let v39 : BitVec 1 := Scalar.cmpi .ne v38 c0_i32_12
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S256x3_o0_0_S256x1 : S256x3.Slices ![0, 0] S256x1
  slices_S3x4096_o0_0_S1x4096 : S3x4096.Slices ![0, 0] S1x4096
  broadcasts_S256x1_S256x4096 : S256x1.Broadcasts S256x4096
  broadcasts_S1x4096_S256x4096 : S1x4096.Broadcasts S256x4096
  slices_S256x3_o0_1_S256x1 : S256x3.Slices ![0, 1] S256x1
  slices_S3x4096_o1_0_S1x4096 : S3x4096.Slices ![1, 0] S1x4096
  slices_S256x3_o0_2_S256x1 : S256x3.Slices ![0, 2] S256x1
  slices_S3x4096_o2_0_S1x4096 : S3x4096.Slices ![2, 0] S1x4096
  reduces_S256x4096_S256 : S256x4096.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x4096_S4096 : S256x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096x1_S_d0_1_2 : S8x4096x1.ReducesTo [0, 1, 2] S_
  h_S_ : 0 < S_.numel
  reducesTo_S8x1x4096_S_d0_1_2 : S8x1x4096.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S8x4096x3.size a
  hwx0_0 : ∀ i : grid0.Coords, EltTy.bits .f32 = 32 ∨ (Rect.block (s := S8x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x4096x1.size a
  hwx0_2 : ∀ i : grid0.Coords, EltTy.bits .f32 = 32 ∨ (Rect.block (s := S8x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg1) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.BitsTile.lean ====
/-
  One grid point of the Chamfer kernel, as a Hoare triple per control case. The grid is (batch, tile): 8 × 16
  points, tile `i` holding 256 ground-truth rows against all 4096 predicted points of the batch. At every point
  the body stores the row minima of its distance tile into the row window; the column minima go into a scratch
  that is reset at the batch's first tile, lowered by `min` at each later tile, and copied into the column
  window at the batch's last tile only. So there are three cases — first tile, a middle tile, last tile — and in
  each the body, run on whole staging buffers holding the point's two input blocks, leaves every buffer at a value
  named through the body's payloads: the row window at `k0_pay3`, the scratch at `k0_pay5` (reset) or `k0_pay6`
  (lowered from what it held), the column window untouched, or at `k0_pay1` of the scratch at the last tile.
-/
import proofs.«147637_j66271345377749_1_alg».proof.Proof.Gen.Kernel.Skeleton
import proofs.«147637_j66271345377749_1_alg».proof.Proof.Gen.Kernel.Frame
import Idealize.ShloMosaic.Lib.Pipeline.Value

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions the body branches on, over the grid -/

/-- "This is the batch's first tile" (`i == 0`), as the body computes it. -/
abbrev atFirst (i : grid0.Coords) : Prop :=
  (Scalar.cmpi .ne (Scalar.extui (Scalar.cmpi .eq (BitVec.ofNat 32 (i 1).val) 0#32)) 0#32) = 1#1
/-- "This is not the batch's first tile" (`i != 0`), as the body computes it. -/
abbrev pastFirst (i : grid0.Coords) : Prop :=
  (Scalar.cmpi .ne (Scalar.extui (Scalar.cmpi .ne (BitVec.ofNat 32 (i 1).val) 0#32)) 0#32) = 1#1
/-- "This is the batch's last tile" (`i == 15`), as the body computes it. -/
abbrev atLast (i : grid0.Coords) : Prop := k0_cond3 i = 1#1

/-- Point `t` of the row-major 8 × 16 grid is tile `t mod 16` of batch `t / 16`: the three conditions decided
    over the 128 points. -/
theorem atFirst_iff : ∀ t : Fin cfg0.N, atFirst (grid0.coords t) ↔ t.val % 16 = 0 :=
  (by decide +kernel : ∀ t : Fin grid0.N, atFirst (grid0.coords t) ↔ t.val % 16 = 0)
theorem pastFirst_iff : ∀ t : Fin cfg0.N, pastFirst (grid0.coords t) ↔ ¬t.val % 16 = 0 :=
  (by decide +kernel : ∀ t : Fin grid0.N, pastFirst (grid0.coords t) ↔ ¬t.val % 16 = 0)
theorem atLast_iff : ∀ t : Fin cfg0.N, atLast (grid0.coords t) ↔ t.val % 16 = 15 :=
  (by decide +kernel : ∀ t : Fin grid0.N, atLast (grid0.coords t) ↔ t.val % 16 = 15)

/-- The column window is stored into at the last tile only: elsewhere it is idle and not written back. -/
theorem colIdle : ∀ t : Fin cfg0.N, ¬t.val % 16 = 15 → cfg0.idle 3 (grid0.coords t) = true :=
  (by decide +kernel : ∀ t : Fin grid0.N, ¬t.val % 16 = 15 → cfg0.idle 3 (grid0.coords t) = true)
theorem colNoFlush : ∀ t : Fin cfg0.N, ¬t.val % 16 = 15 → (cfg0.win 3).flush t = false :=
  (by decide +kernel : ∀ t : Fin grid0.N, ¬t.val % 16 = 15 → win0_3.flush t = false)
theorem colLive : ∀ t : Fin cfg0.N, t.val % 16 = 15 → cfg0.idle 3 (grid0.coords t) = false :=
  (by decide +kernel : ∀ t : Fin grid0.N, t.val % 16 = 15 → cfg0.idle 3 (grid0.coords t) = false)
/-- The other three windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## A buffer stored whole holds what was stored -/

theorem zeros3 : (![0, 0, 0] : Fin 3 → Nat) = fun _ => 0 := by funext a; fin_cases a <;> rfl
theorem zeros2 : (![0, 0] : Fin 2 → Nat) = fun _ => 0 := by funext a; fin_cases a <;> rfl

/-- One store through the whole-shape rectangle at zero offsets, read back through any view of the shape and
    over any earlier contents, is the stored value. -/
theorem read_stored_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-! ## The body at a point of each case -/

set_option maxHeartbeats 1000000 in
/-- FIRST TILE. From the two input blocks `g`, `p`, the row window and the scratch at anything and the column
    window at `z`: the row window ends at the tile's row minima, the scratch is RESET to the tile's column minima,
    the column window still holds `z`. -/
theorem first_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : atFirst i) (h2 : ¬pastFirst i) (h3 : ¬atLast i)
    (g : Vec F S1x256x3 .f32) (p : Vec F S1x3x4096 .f32) (z : Vec F S1x1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ owns (c : Thread nD τ) arg5 fullShare z
        ∗ (∃ d, owns (c : Thread nD τ) arg6 fullShare d)
        ∗ (iprop(owns (c : Thread nD τ) arg2 fullShare g ∗ owns (c : Thread nD τ) arg3 fullShare p
            ∗ owns (c : Thread nD τ) arg4 fullShare (k0_pay3 g p)
            ∗ owns (c : Thread nD τ) arg5 fullShare z
            ∗ owns (c : Thread nD τ) arg6 fullShare (k0_pay5 g p)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; · ipureintro; exact harg5.read_unread _
    iexact H3
  iexists _; isplitr; swap; · iexact HS
  ipureintro; sl_unfold_words
  rw [read_stored_whole _ _ zeros2]
  simp only [View.readAt_eq_ld, harg2.read_unread, harg3.read_unread, View.ld_unit_zero (S := S1x256x3) zeros3, View.ld_unit_zero (S := S1x3x4096) zeros3]

set_option maxHeartbeats 1000000 in
/-- A MIDDLE TILE. The scratch held `acc`: it ends at `acc` lowered by the tile's column minima; the row window
    at the tile's row minima; the column window still at `z`. -/
theorem middle_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : ¬atFirst i) (h2 : pastFirst i) (h3 : ¬atLast i)
    (g : Vec F S1x256x3 .f32) (p : Vec F S1x3x4096 .f32) (z : Vec F S1x1x4096 .f32) (acc : Vec F S1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ owns (c : Thread nD τ) arg5 fullShare z
        ∗ owns (c : Thread nD τ) arg6 fullShare acc
        ∗ (iprop(owns (c : Thread nD τ) arg2 fullShare g ∗ owns (c : Thread nD τ) arg3 fullShare p
            ∗ owns (c : Thread nD τ) arg4 fullShare (k0_pay3 g p)
            ∗ owns (c : Thread nD τ) arg5 fullShare z
            ∗ owns (c : Thread nD τ) arg6 fullShare (k0_pay6 g p acc)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3
  obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; · ipureintro; exact harg5.read_unread _
    iexact H3
  iexists _; isplitr; swap; · iexact HS
  ipureintro; sl_unfold_words
  rw [read_stored_whole _ _ zeros2]
  simp only [View.readAt_eq_ld, harg2.read_unread, harg3.read_unread, harg6.read_unread, View.ld_unit_zero (S := S1x256x3) zeros3, View.ld_unit_zero (S := S1x3x4096) zeros3, View.ld_unit_zero (S := S1x4096) zeros2]

set_option maxHeartbeats 1000000 in
/-- THE LAST TILE. As a middle tile, and then the scratch, read back, is copied into the column window. -/
theorem last_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : ¬atFirst i) (h2 : pastFirst i) (h3 : atLast i)
    (g : Vec F S1x256x3 .f32) (p : Vec F S1x3x4096 .f32) (acc : Vec F S1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ (∃ d, owns (c : Thread nD τ) arg5 fullShare d)
        ∗ owns (c : Thread nD τ) arg6 fullShare acc
        ∗ (iprop(owns (c : Thread nD τ) arg2 fullShare g ∗ owns (c : Thread nD τ) arg3 fullShare p
            ∗ owns (c : Thread nD τ) arg4 fullShare (k0_pay3 g p)
            ∗ owns (c : Thread nD τ) arg5 fullShare (k0_pay1 (k0_pay6 g p acc))
            ∗ owns (c : Thread nD τ) arg6 fullShare (k0_pay6 g p acc)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; swap; · iexact H3
    ipureintro; sl_unfold_words
    rw [read_stored_whole _ _ zeros3]
    simp only [View.readCov_unit_zero (S := S1x4096) _ zeros2, View.readAt_eq_ld, harg2.read_unread, harg3.read_unread, harg6.read_unread, View.ld_unit_zero (S := S1x256x3) zeros3, View.ld_unit_zero (S := S1x3x4096) zeros3, View.ld_unit_zero (S := S1x4096) zeros2]
  iexists _; isplitr; swap; · iexact HS
  ipureintro; sl_unfold_words
  rw [read_stored_whole _ _ zeros2]
  simp only [View.readAt_eq_ld, harg2.read_unread, harg3.read_unread, harg6.read_unread, View.ld_unit_zero (S := S1x256x3) zeros3, View.ld_unit_zero (S := S1x3x4096) zeros3, View.ld_unit_zero (S := S1x4096) zeros2]

end Cert.Kernel.Tile

end
-- ==== Proof.BitsSweep.lean ====
/-
  The Chamfer kernel across its 8 × 16 grid: what each staging buffer holds after each point, and from that the
  program's run and its frame.

  The two inputs' buffers hold the point's blocks (`gBlk`: 256 ground-truth rows; `pBlk`: the batch's 4096 predicted
  points, coordinates along the rows). The row window holds the tile's row minima, written back at every point. The
  scratch holds the running column minima of the batch, `colAcc`: reset at the batch's first tile, lowered at each
  later one — a recursion on the point, in row-major order. The column window is idle but at the batch's last tile,
  where it takes the scratch's contents and is written back. The region's invariant carries the scratch at
  `colAcc` from point to point; before the first point and after the last it is the plain "scratch at anything".
-/
import proofs.«147637_j66271345377749_1_alg».proof.Proof.BitsTile

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the running column minima -/

/-- The ground-truth rows of point `t`: block (batch, tile) of the first operand. -/
abbrev gBlk (c : Dev nD) (t : Fin cfg0.N) : Vec F S1x256x3 .f32 := iblk m c 0 t
/-- The predicted points of point `t`'s batch, transposed: block (batch) of the second operand. -/
abbrev pBlk (c : Dev nD) (t : Fin cfg0.N) : Vec F S1x3x4096 .f32 := iblk m c 1 t

/-- What the scratch holds after point `n`: at a batch's first tile the tile's column minima, at a later tile those
    lowered into what the point before left. -/
def colAcc (c : Dev nD) : (n : ℕ) → n < cfg0.N → Vec F S1x4096 .f32
  | 0, h => k0_pay5 (gBlk m c ⟨0, h⟩) (pBlk m c ⟨0, h⟩)
  | n + 1, h =>
    if (n + 1) % 16 = 0 then k0_pay5 (gBlk m c ⟨n + 1, h⟩) (pBlk m c ⟨n + 1, h⟩)
    else k0_pay6 (gBlk m c ⟨n + 1, h⟩) (pBlk m c ⟨n + 1, h⟩) (colAcc c n (Nat.lt_of_succ_lt h))

theorem colAcc_reset (c : Dev nD) (t : Fin cfg0.N) (h : t.val % 16 = 0) :
    colAcc m c t.val t.isLt = k0_pay5 (gBlk m c t) (pBlk m c t) := by
  obtain ⟨n, hn⟩ := t
  cases n with
  | zero => exact rfl
  | succ n => exact (if_pos h).trans rfl

theorem colAcc_lower (c : Dev nD) (t : Fin cfg0.N) (h : ¬t.val % 16 = 0) :
    colAcc m c t.val t.isLt
      = k0_pay6 (gBlk m c t) (pBlk m c t) (colAcc m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The scratch operand: a whole scoped buffer of the kernel's own. -/
abbrev scr : Memref sig .tc .vmem S1x4096 .f32 := Memref.whole cc0_scratch0

/-- What the launch lends the region besides the windows: the scratch at some contents and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Before position `n`: nothing known of the scratch at the start, afterwards the scratch at `colAcc` of the point
    before. -/
def held (c : Dev nD) : (n : ℕ) → n ≤ cfg0.N → sProp 𝕄
  | 0, _ => Pipeline.ΦA spec0 c
  | n + 1, hn => iprop(iprop(owns (c : Thread nD τ) scr fullShare (colAcc m c n hn)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) scr fullShare (colAcc m c n hn)) ∗ (∃ r, prngReg c r)) := rfl

theorem held_pos (c : Dev nD) (n : ℕ) (h : n ≤ cfg0.N) (hz : n ≠ 0) :
    held m c n h = iprop(iprop(owns (c : Thread nD τ) scr fullShare (colAcc m c (n - 1) (by omega))) ∗ (∃ r, prngReg c r)) := by
  cases n with
  | zero => exact absurd rfl hz
  | succ n => rfl

/-! ## The proof data -/

/-- Per core: the arrays as the region finds them; after the body at point `t` the inputs' buffers at their blocks,
    the row window at the tile's row minima, the column window (where it is live) at the scratch's contents; the
    invariant `held`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (gBlk m c t) (pBlk m c t)
    | ⟨3, _⟩ => k0_pay1 (colAcc m c t.val t.isLt)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = held m c t.val (Nat.le_of_lt t.isLt) := by
  dsimp only [dats]; simp only [Fin.coe_castSucc]

theorem after_g (c : Dev nD) (t : Fin cfg0.N) : (dats m 0 c).after 0 t = iblk m c 0 t := by dsimp only [dats]
theorem after_p (c : Dev nD) (t : Fin cfg0.N) : (dats m 0 c).after 1 t = iblk m c 1 t := by dsimp only [dats]
theorem after_row (c : Dev nD) (t : Fin cfg0.N) :
    (dats m 0 c).after 2 t = k0_pay3 (gBlk m c t) (pBlk m c t) := by dsimp only [dats]
theorem after_col (c : Dev nD) (t : Fin cfg0.N) :
    (dats m 0 c).after 3 t = k0_pay1 (colAcc m c t.val t.isLt) := by dsimp only [dats]

/-- Each input's current buffer holds its block at every point, fetched there or not. -/
theorem before_g (c : Dev nD) (t : Fin cfg0.N) (d) : (dats m 0 c).before 0 t d = iblk m c 0 t :=
  before0_0_of m (dats m 0 c) (A_eq m c 0) (after_g m c) t d
theorem before_p (c : Dev nD) (t : Fin cfg0.N) (d) : (dats m 0 c).before 1 t d = iblk m c 1 t :=
  before0_1_of m (dats m 0 c) (A_eq m c 1) (after_p m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the point's residue mod 16 says which of the three cases it is; the invariant hands the
    scratch over at what the point before left (at anything before the very first point) and takes it back at this
    point's `colAcc`; an idle column window goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_g, before_p]
  rw [show (dats m 0 c).owesAt () t.succ = (dats m 0 c).owesAt () t.castSucc from rfl]
  rw [show (dats m 0 c).Φ t.succ = held m c (t.val + 1) t.isLt from rfl, held_succ]
  rw [show (dats m 0 c).leavesExact 0 t = owns (c : Thread nD τ) (win0_0.stage (cfg0.slots t 0)) fullShare ((dats m 0 c).after 0 t) from by
    unfold Dat.leavesExact; rw [live0 t], after_g]
  rw [show (dats m 0 c).leavesExact 1 t = owns (c : Thread nD τ) (win0_1.stage (cfg0.slots t 1)) fullShare ((dats m 0 c).after 1 t) from by
    unfold Dat.leavesExact; rw [live1 t], after_p]
  rw [show (dats m 0 c).leavesExact 2 t = owns (c : Thread nD τ) (win0_2.stage (cfg0.slots t 2)) fullShare ((dats m 0 c).after 2 t) from by
    unfold Dat.leavesExact; rw [live2 t], after_row]
  have hN : t.val < 128 := lt_of_lt_of_eq t.isLt (show cfg0.N = 128 from N_0)
  by_cases hF : t.val % 16 = 0
  · have hL : ¬t.val % 16 = 15 := by omega
    rw [Dat.leavesExact_idle (dats m 0 c) 3 t (colIdle t hL) (colNoFlush t hL)]
    rw [colAcc_reset m c t hF]
    by_cases hz : t.val = 0
    · rw [Phi_start m c t, held_zero m c _ _ hz, rest_eq]
      iintro ⟨⟨HS, Hg⟩, Ho, ⟨%d0, H0⟩, ⟨%d1, H1⟩, ⟨%d2, H2⟩, ⟨%d3, H3⟩⟩
      iapply (first_tile c (grid0.coords t) _ _ _ _ _ _ _ _ _ _ ((atFirst_iff t).mpr hF) (fun h => (pastFirst_iff t).mp h hF)
        (fun h => hL ((atLast_iff t).mp h)) (gBlk m c t) (pBlk m c t) _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [Phi_start m c t, held_pos m c _ _ hz]
      iintro ⟨⟨HS, Hg⟩, Ho, ⟨%d0, H0⟩, ⟨%d1, H1⟩, ⟨%d2, H2⟩, ⟨%d3, H3⟩⟩
      iapply (first_tile c (grid0.coords t) _ _ _ _ _ _ _ _ _ _ ((atFirst_iff t).mpr hF) (fun h => (pastFirst_iff t).mp h hF)
        (fun h => hL ((atLast_iff t).mp h)) (gBlk m c t) (pBlk m c t) _ Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => hF (by rw [e])
    by_cases hL : t.val % 16 = 15
    · rw [show (dats m 0 c).leavesExact 3 t = owns (c : Thread nD τ) (win0_3.stage (cfg0.slots t 3)) fullShare ((dats m 0 c).after 3 t) from by
        unfold Dat.leavesExact; rw [colLive t hL], after_col]
      rw [colAcc_lower m c t hF]
      rw [Phi_start m c t, held_pos m c _ _ hz]
      iintro ⟨⟨HS, Hg⟩, Ho, ⟨%d0, H0⟩, ⟨%d1, H1⟩, ⟨%d2, H2⟩, ⟨%d3, H3⟩⟩
      iapply (last_tile c (grid0.coords t) _ _ _ _ _ _ _ _ _ _ (fun h => hF ((atFirst_iff t).mp h)) ((pastFirst_iff t).mpr hF)
        ((atLast_iff t).mpr hL) (gBlk m c t) (pBlk m c t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (colIdle t hL) (colNoFlush t hL)]
      rw [colAcc_lower m c t hF]
      rw [Phi_start m c t, held_pos m c _ _ hz]
      iintro ⟨⟨HS, Hg⟩, Ho, ⟨%d0, H0⟩, ⟨%d1, H1⟩, ⟨%d2, H2⟩, ⟨%d3, H3⟩⟩
      iapply (middle_tile c (grid0.coords t) _ _ _ _ _ _ _ _ _ _ (fun h => hF ((atFirst_iff t).mp h)) ((pastFirst_iff t).mpr hF)
        (fun h => hL ((atLast_iff t).mp h)) (gBlk m c t) (pBlk m c t) _ _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

/-- What the launch lends is the invariant before the first point, -/
theorem lend (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

/-- and after the last point the invariant gives it back, the scratch's contents forgotten. -/
theorem giveBack (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = held m c (Fin.last cfg0.N).val (Nat.le_of_lt_succ (Fin.last cfg0.N).isLt) from rfl,
    held_pos m c _ _ ht, rest_eq]
  iintro ⟨HS, Hg⟩
  isplitl [HS]
  · iexists _; iexact HS
  iexact Hg

/-! ## The run and the frame -/

set_option backward.isDefEq.respectTransparency.types false in
/-- From any memory with zero counters every weakly fair execution of the program ends, without a fault, with each
    windowed array at what the write-backs of the proof data leave in it and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := lend m) (hout := giveBack m)

/-- The program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Sweep

end
-- ==== Proof.IdealTile.lean ====
/-
  One grid point of the Chamfer kernel, as a Hoare triple per control case. The grid is (batch, tile): 8 × 16
  points, tile `i` holding 256 ground-truth rows against all 4096 predicted points of the batch. At every point
  the body stores the row minima of its distance tile into the row window; the column minima go into a scratch
  that is reset at the batch's first tile, lowered by `min` at each later tile, and copied into the column
  window at the batch's last tile only. So there are three cases — first tile, a middle tile, last tile — and in
  each the body, run on whole staging buffers holding the point's two input blocks, leaves every buffer at a value
  named through the body's payloads: the row window at `k0_pay3`, the scratch at `k0_pay5` (reset) or `k0_pay6`
  (lowered from what it held), the column window untouched, or at `k0_pay1` of the scratch at the last tile.
-/
import proofs.«147637_j66271345377749_1_alg».proof.Proof.Gen.KernelIdeal.Skeleton
import proofs.«147637_j66271345377749_1_alg».proof.Proof.Gen.KernelIdeal.Frame
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions the body branches on, over the grid -/

/-- "This is the batch's first tile" (`i == 0`), as the body computes it. -/
abbrev atFirst (i : grid0.Coords) : Prop :=
  (Scalar.cmpi .ne (Scalar.extui (Scalar.cmpi .eq (BitVec.ofNat 32 (i 1).val) 0#32)) 0#32) = 1#1
/-- "This is not the batch's first tile" (`i != 0`), as the body computes it. -/
abbrev pastFirst (i : grid0.Coords) : Prop :=
  (Scalar.cmpi .ne (Scalar.extui (Scalar.cmpi .ne (BitVec.ofNat 32 (i 1).val) 0#32)) 0#32) = 1#1
/-- "This is the batch's last tile" (`i == 15`), as the body computes it. -/
abbrev atLast (i : grid0.Coords) : Prop := k0_cond3 i = 1#1

/-- Point `t` of the row-major 8 × 16 grid is tile `t mod 16` of batch `t / 16`: the three conditions decided
    over the 128 points. -/
theorem atFirst_iff : ∀ t : Fin cfg0.N, atFirst (grid0.coords t) ↔ t.val % 16 = 0 :=
  (by decide +kernel : ∀ t : Fin grid0.N, atFirst (grid0.coords t) ↔ t.val % 16 = 0)
theorem pastFirst_iff : ∀ t : Fin cfg0.N, pastFirst (grid0.coords t) ↔ ¬t.val % 16 = 0 :=
  (by decide +kernel : ∀ t : Fin grid0.N, pastFirst (grid0.coords t) ↔ ¬t.val % 16 = 0)
theorem atLast_iff : ∀ t : Fin cfg0.N, atLast (grid0.coords t) ↔ t.val % 16 = 15 :=
  (by decide +kernel : ∀ t : Fin grid0.N, atLast (grid0.coords t) ↔ t.val % 16 = 15)

/-- The column window is stored into at the last tile only: elsewhere it is idle and not written back. -/
theorem colIdle : ∀ t : Fin cfg0.N, ¬t.val % 16 = 15 → cfg0.idle 3 (grid0.coords t) = true :=
  (by decide +kernel : ∀ t : Fin grid0.N, ¬t.val % 16 = 15 → cfg0.idle 3 (grid0.coords t) = true)
theorem colNoFlush : ∀ t : Fin cfg0.N, ¬t.val % 16 = 15 → (cfg0.win 3).flush t = false :=
  (by decide +kernel : ∀ t : Fin grid0.N, ¬t.val % 16 = 15 → win0_3.flush t = false)
theorem colLive : ∀ t : Fin cfg0.N, t.val % 16 = 15 → cfg0.idle 3 (grid0.coords t) = false :=
  (by decide +kernel : ∀ t : Fin grid0.N, t.val % 16 = 15 → cfg0.idle 3 (grid0.coords t) = false)
/-- The other three windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-! ## A buffer stored whole holds what was stored -/

theorem zeros3 : (![0, 0, 0] : Fin 3 → Nat) = fun _ => 0 := by funext a; fin_cases a <;> rfl
theorem zeros2 : (![0, 0] : Fin 2 → Nat) = fun _ => 0 := by funext a; fin_cases a <;> rfl

/-- One store through the whole-shape rectangle at zero offsets, read back through any view of the shape and
    over any earlier contents, is the stored value. -/
theorem read_stored_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-! ## The body at a point of each case -/

set_option maxHeartbeats 1000000 in
/-- FIRST TILE. From the two input blocks `g`, `p`, the row window and the scratch at anything and the column
    window at `z`: the row window ends at the tile's row minima, the scratch is RESET to the tile's column minima,
    the column window still holds `z`. -/
theorem first_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : atFirst i) (h2 : ¬pastFirst i) (h3 : ¬atLast i)
    (g : Vec F S1x256x3 .f32) (p : Vec F S1x3x4096 .f32) (z : Vec F S1x1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ owns (c : Thread nD τ) arg5 fullShare z
        ∗ (∃ d, owns (c : Thread nD τ) arg6 fullShare d)
        ∗ (iprop(owns (c : Thread nD τ) arg2 fullShare g ∗ owns (c : Thread nD τ) arg3 fullShare p
            ∗ owns (c : Thread nD τ) arg4 fullShare (k0_pay3 g p)
            ∗ owns (c : Thread nD τ) arg5 fullShare z
            ∗ owns (c : Thread nD τ) arg6 fullShare (k0_pay5 g p)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; · ipureintro; exact harg5.read_unread _
    iexact H3
  iexists _; isplitr; swap; · iexact HS
  ipureintro; sl_unfold_words
  rw [read_stored_whole _ _ zeros2]
  simp only [View.readAt_eq_ld, harg2.read_unread, harg3.read_unread, View.ld_unit_zero (S := S1x256x3) zeros3, View.ld_unit_zero (S := S1x3x4096) zeros3]

set_option maxHeartbeats 1000000 in
/-- A MIDDLE TILE. The scratch held `acc`: it ends at `acc` lowered by the tile's column minima; the row window
    at the tile's row minima; the column window still at `z`. -/
theorem middle_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : ¬atFirst i) (h2 : pastFirst i) (h3 : ¬atLast i)
    (g : Vec F S1x256x3 .f32) (p : Vec F S1x3x4096 .f32) (z : Vec F S1x1x4096 .f32) (acc : Vec F S1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ owns (c : Thread nD τ) arg5 fullShare z
        ∗ owns (c : Thread nD τ) arg6 fullShare acc
        ∗ (iprop(owns (c : Thread nD τ) arg2 fullShare g ∗ owns (c : Thread nD τ) arg3 fullShare p
            ∗ owns (c : Thread nD τ) arg4 fullShare (k0_pay3 g p)
            ∗ owns (c : Thread nD τ) arg5 fullShare z
            ∗ owns (c : Thread nD τ) arg6 fullShare (k0_pay6 g p acc)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3
  obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; · ipureintro; exact harg5.read_unread _
    iexact H3
  iexists _; isplitr; swap; · iexact HS
  ipureintro; sl_unfold_words
  rw [read_stored_whole _ _ zeros2]
  simp only [View.readAt_eq_ld, harg2.read_unread, harg3.read_unread, harg6.read_unread, View.ld_unit_zero (S := S1x256x3) zeros3, View.ld_unit_zero (S := S1x3x4096) zeros3, View.ld_unit_zero (S := S1x4096) zeros2]

set_option maxHeartbeats 1000000 in
/-- THE LAST TILE. As a middle tile, and then the scratch, read back, is copied into the column window. -/
theorem last_tile (c : Dev nD) (i : grid0.Coords) (arg2 : Memref sig .tc .vmem S1x256x3 .f32) (harg2 : arg2.IsWhole) (arg3 : Memref sig .tc .vmem S1x3x4096 .f32) (harg3 : arg3.IsWhole) (arg4 : Memref sig .tc .vmem S1x256x1 .f32) (harg4 : arg4.IsWhole) (arg5 : Memref sig .tc .vmem S1x1x4096 .f32) (harg5 : arg5.IsWhole) (arg6 : Memref sig .tc .vmem S1x4096 .f32) (harg6 : arg6.IsWhole)
    (h1 : ¬atFirst i) (h2 : pastFirst i) (h3 : atLast i)
    (g : Vec F S1x256x3 .f32) (p : Vec F S1x3x4096 .f32) (acc : Vec F S1x4096 .f32)
    (E : Set ℕ) (K : PUnit → sProp 𝕄) :
    iprop(owns (c : Thread nD τ) arg2 fullShare g ∗ owns (c : Thread nD τ) arg3 fullShare p
        ∗ (∃ d, owns (c : Thread nD τ) arg4 fullShare d) ∗ (∃ d, owns (c : Thread nD τ) arg5 fullShare d)
        ∗ owns (c : Thread nD τ) arg6 fullShare acc
        ∗ (iprop(owns (c : Thread nD τ) arg2 fullShare g ∗ owns (c : Thread nD τ) arg3 fullShare p
            ∗ owns (c : Thread nD τ) arg4 fullShare (k0_pay3 g p)
            ∗ owns (c : Thread nD τ) arg5 fullShare (k0_pay1 (k0_pay6 g p acc))
            ∗ owns (c : Thread nD τ) arg6 fullShare (k0_pay6 g p acc)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; sl_unfold_words
    rw [read_stored_whole _ _ zeros3]
    simp only [View.readAt_eq_ld, harg2.read_unread, harg3.read_unread, View.ld_unit_zero (S := S1x256x3) zeros3, View.ld_unit_zero (S := S1x3x4096) zeros3]
  isplitl [H3]
  · iexists _; isplitr; swap; · iexact H3
    ipureintro; sl_unfold_words
    rw [read_stored_whole _ _ zeros3]
    simp only [View.readCov_unit_zero (S := S1x4096) _ zeros2, View.readAt_eq_ld, harg2.read_unread, harg3.read_unread, harg6.read_unread, View.ld_unit_zero (S := S1x256x3) zeros3, View.ld_unit_zero (S := S1x3x4096) zeros3, View.ld_unit_zero (S := S1x4096) zeros2]
  iexists _; isplitr; swap; · iexact HS
  ipureintro; sl_unfold_words
  rw [read_stored_whole _ _ zeros2]
  simp only [View.readAt_eq_ld, harg2.read_unread, harg3.read_unread, harg6.read_unread, View.ld_unit_zero (S := S1x256x3) zeros3, View.ld_unit_zero (S := S1x3x4096) zeros3, View.ld_unit_zero (S := S1x4096) zeros2]

end Cert.KernelIdeal.Tile

end
-- ==== Proof.IdealSweep.lean ====
/-
  The Chamfer kernel across its 8 × 16 grid: what each staging buffer holds after each point, and from that the
  program's run and its frame.

  The two inputs' buffers hold the point's blocks (`gBlk`: 256 ground-truth rows; `pBlk`: the batch's 4096 predicted
  points, coordinates along the rows). The row window holds the tile's row minima, written back at every point. The
  scratch holds the running column minima of the batch, `colAcc`: reset at the batch's first tile, lowered at each
  later one — a recursion on the point, in row-major order. The column window is idle but at the batch's last tile,
  where it takes the scratch's contents and is written back. The region's invariant carries the scratch at
  `colAcc` from point to point; before the first point and after the last it is the plain "scratch at anything".
-/
import proofs.«147637_j66271345377749_1_alg».proof.Proof.IdealTile

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the running column minima -/

/-- The ground-truth rows of point `t`: block (batch, tile) of the first operand. -/
abbrev gBlk (c : Dev nD) (t : Fin cfg0.N) : Vec F S1x256x3 .f32 := iblk m c 0 t
/-- The predicted points of point `t`'s batch, transposed: block (batch) of the second operand. -/
abbrev pBlk (c : Dev nD) (t : Fin cfg0.N) : Vec F S1x3x4096 .f32 := iblk m c 1 t

/-- What the scratch holds after point `n`: at a batch's first tile the tile's column minima, at a later tile those
    lowered into what the point before left. -/
def colAcc (c : Dev nD) : (n : ℕ) → n < cfg0.N → Vec F S1x4096 .f32
  | 0, h => k0_pay5 (gBlk m c ⟨0, h⟩) (pBlk m c ⟨0, h⟩)
  | n + 1, h =>
    if (n + 1) % 16 = 0 then k0_pay5 (gBlk m c ⟨n + 1, h⟩) (pBlk m c ⟨n + 1, h⟩)
    else k0_pay6 (gBlk m c ⟨n + 1, h⟩) (pBlk m c ⟨n + 1, h⟩) (colAcc c n (Nat.lt_of_succ_lt h))

theorem colAcc_reset (c : Dev nD) (t : Fin cfg0.N) (h : t.val % 16 = 0) :
    colAcc m c t.val t.isLt = k0_pay5 (gBlk m c t) (pBlk m c t) := by
  obtain ⟨n, hn⟩ := t
  cases n with
  | zero => exact rfl
  | succ n => exact (if_pos h).trans rfl

theorem colAcc_lower (c : Dev nD) (t : Fin cfg0.N) (h : ¬t.val % 16 = 0) :
    colAcc m c t.val t.isLt
      = k0_pay6 (gBlk m c t) (pBlk m c t) (colAcc m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant between points -/

/-- The scratch operand: a whole scoped buffer of the kernel's own. -/
abbrev scr : Memref sig .tc .vmem S1x4096 .f32 := Memref.whole cc0_scratch0

/-- What the launch lends the region besides the windows: the scratch at some contents and the generator register. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Before position `n`: nothing known of the scratch at the start, afterwards the scratch at `colAcc` of the point
    before. -/
def held (c : Dev nD) : (n : ℕ) → n ≤ cfg0.N → sProp 𝕄
  | 0, _ => Pipeline.ΦA spec0 c
  | n + 1, hn => iprop(iprop(owns (c : Thread nD τ) scr fullShare (colAcc m c n hn)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) scr fullShare (colAcc m c n hn)) ∗ (∃ r, prngReg c r)) := rfl

theorem held_pos (c : Dev nD) (n : ℕ) (h : n ≤ cfg0.N) (hz : n ≠ 0) :
    held m c n h = iprop(iprop(owns (c : Thread nD τ) scr fullShare (colAcc m c (n - 1) (by omega))) ∗ (∃ r, prngReg c r)) := by
  cases n with
  | zero => exact absurd rfl hz
  | succ n => rfl

/-! ## The proof data -/

/-- Per core: the arrays as the region finds them; after the body at point `t` the inputs' buffers at their blocks,
    the row window at the tile's row minima, the column window (where it is live) at the scratch's contents; the
    invariant `held`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (gBlk m c t) (pBlk m c t)
    | ⟨3, _⟩ => k0_pay1 (colAcc m c t.val t.isLt)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = held m c t.val (Nat.le_of_lt t.isLt) := by
  dsimp only [dats]; simp only [Fin.coe_castSucc]

theorem after_g (c : Dev nD) (t : Fin cfg0.N) : (dats m 0 c).after 0 t = iblk m c 0 t := by dsimp only [dats]
theorem after_p (c : Dev nD) (t : Fin cfg0.N) : (dats m 0 c).after 1 t = iblk m c 1 t := by dsimp only [dats]
theorem after_row (c : Dev nD) (t : Fin cfg0.N) :
    (dats m 0 c).after 2 t = k0_pay3 (gBlk m c t) (pBlk m c t) := by dsimp only [dats]
theorem after_col (c : Dev nD) (t : Fin cfg0.N) :
    (dats m 0 c).after 3 t = k0_pay1 (colAcc m c t.val t.isLt) := by dsimp only [dats]

/-- Each input's current buffer holds its block at every point, fetched there or not. -/
theorem before_g (c : Dev nD) (t : Fin cfg0.N) (d) : (dats m 0 c).before 0 t d = iblk m c 0 t :=
  before0_0_of m (dats m 0 c) (A_eq m c 0) (after_g m c) t d
theorem before_p (c : Dev nD) (t : Fin cfg0.N) (d) : (dats m 0 c).before 1 t d = iblk m c 1 t :=
  before0_1_of m (dats m 0 c) (A_eq m c 1) (after_p m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the point's residue mod 16 says which of the three cases it is; the invariant hands the
    scratch over at what the point before left (at anything before the very first point) and takes it back at this
    point's `colAcc`; an idle column window goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_g, before_p]
  rw [show (dats m 0 c).owesAt () t.succ = (dats m 0 c).owesAt () t.castSucc from rfl]
  rw [show (dats m 0 c).Φ t.succ = held m c (t.val + 1) t.isLt from rfl, held_succ]
  rw [show (dats m 0 c).leavesExact 0 t = owns (c : Thread nD τ) (win0_0.stage (cfg0.slots t 0)) fullShare ((dats m 0 c).after 0 t) from by
    unfold Dat.leavesExact; rw [live0 t], after_g]
  rw [show (dats m 0 c).leavesExact 1 t = owns (c : Thread nD τ) (win0_1.stage (cfg0.slots t 1)) fullShare ((dats m 0 c).after 1 t) from by
    unfold Dat.leavesExact; rw [live1 t], after_p]
  rw [show (dats m 0 c).leavesExact 2 t = owns (c : Thread nD τ) (win0_2.stage (cfg0.slots t 2)) fullShare ((dats m 0 c).after 2 t) from by
    unfold Dat.leavesExact; rw [live2 t], after_row]
  have hN : t.val < 128 := lt_of_lt_of_eq t.isLt (show cfg0.N = 128 from N_0)
  by_cases hF : t.val % 16 = 0
  · have hL : ¬t.val % 16 = 15 := by omega
    rw [Dat.leavesExact_idle (dats m 0 c) 3 t (colIdle t hL) (colNoFlush t hL)]
    rw [colAcc_reset m c t hF]
    by_cases hz : t.val = 0
    · rw [Phi_start m c t, held_zero m c _ _ hz, rest_eq]
      iintro ⟨⟨HS, Hg⟩, Ho, ⟨%d0, H0⟩, ⟨%d1, H1⟩, ⟨%d2, H2⟩, ⟨%d3, H3⟩⟩
      iapply (first_tile c (grid0.coords t) _ _ _ _ _ _ _ _ _ _ ((atFirst_iff t).mpr hF) (fun h => (pastFirst_iff t).mp h hF)
        (fun h => hL ((atLast_iff t).mp h)) (gBlk m c t) (pBlk m c t) _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [Phi_start m c t, held_pos m c _ _ hz]
      iintro ⟨⟨HS, Hg⟩, Ho, ⟨%d0, H0⟩, ⟨%d1, H1⟩, ⟨%d2, H2⟩, ⟨%d3, H3⟩⟩
      iapply (first_tile c (grid0.coords t) _ _ _ _ _ _ _ _ _ _ ((atFirst_iff t).mpr hF) (fun h => (pastFirst_iff t).mp h hF)
        (fun h => hL ((atLast_iff t).mp h)) (gBlk m c t) (pBlk m c t) _ Set.univ _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hz : t.val ≠ 0 := fun e => hF (by rw [e])
    by_cases hL : t.val % 16 = 15
    · rw [show (dats m 0 c).leavesExact 3 t = owns (c : Thread nD τ) (win0_3.stage (cfg0.slots t 3)) fullShare ((dats m 0 c).after 3 t) from by
        unfold Dat.leavesExact; rw [colLive t hL], after_col]
      rw [colAcc_lower m c t hF]
      rw [Phi_start m c t, held_pos m c _ _ hz]
      iintro ⟨⟨HS, Hg⟩, Ho, ⟨%d0, H0⟩, ⟨%d1, H1⟩, ⟨%d2, H2⟩, ⟨%d3, H3⟩⟩
      iapply (last_tile c (grid0.coords t) _ _ _ _ _ _ _ _ _ _ (fun h => hF ((atFirst_iff t).mp h)) ((pastFirst_iff t).mpr hF)
        ((atLast_iff t).mpr hL) (gBlk m c t) (pBlk m c t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 3 t (colIdle t hL) (colNoFlush t hL)]
      rw [colAcc_lower m c t hF]
      rw [Phi_start m c t, held_pos m c _ _ hz]
      iintro ⟨⟨HS, Hg⟩, Ho, ⟨%d0, H0⟩, ⟨%d1, H1⟩, ⟨%d2, H2⟩, ⟨%d3, H3⟩⟩
      iapply (middle_tile c (grid0.coords t) _ _ _ _ _ _ _ _ _ _ (fun h => hF ((atFirst_iff t).mp h)) ((pastFirst_iff t).mpr hF)
        (fun h => hL ((atLast_iff t).mp h)) (gBlk m c t) (pBlk m c t) _ _ Set.univ _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

/-- What the launch lends is the invariant before the first point, -/
theorem lend (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

/-- and after the last point the invariant gives it back, the scratch's contents forgotten. -/
theorem giveBack (c : Dev nD) : (dats m 0 c).Φ (Fin.last cfg0.N) ⊢ Pipeline.ΦA spec0 c := by
  have ht : (Fin.last cfg0.N).val ≠ 0 := by rw [Fin.val_last]; have : cfg0.N = 128 := N_0; omega
  rw [show (dats m 0 c).Φ (Fin.last cfg0.N) = held m c (Fin.last cfg0.N).val (Nat.le_of_lt_succ (Fin.last cfg0.N).isLt) from rfl,
    held_pos m c _ _ ht, rest_eq]
  iintro ⟨HS, Hg⟩
  isplitl [HS]
  · iexists _; iexact HS
  iexact Hg

/-! ## The run and the frame -/

set_option backward.isDefEq.respectTransparency.types false in
/-- From any memory with zero counters every weakly fair execution of the program ends, without a fault, with each
    windowed array at what the write-backs of the proof data leave in it and every other unscoped buffer as the host
    operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := lend m) (hout := giveBack m)

/-- The program runs to the end, faults nowhere and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Sweep

end
-- ==== Proof.ChamferSpec.lean ====
/-
  The Chamfer loss between two batches of point clouds, as a function of the two arrays over the extended
  reals. For a batch `b`, a ground-truth point `a` and a predicted point `j` (eight batches of 4096 points in
  three coordinates) the squared distance is `∑_d (g b a d − p b j d)²`; `nearPred` is its minimum over the
  predicted points, `nearTruth` its minimum over the ground-truth points; the loss is the larger of the two
  means (each a total over the 8·4096 minima divided by 32768).

  Two arrangements of the squared distance are named: the difference form `sqDist` (subtract, square, add the
  three squares, left to right) and the expanded form `exDist` (‖g‖² + ‖p‖² − 2·⟨g, p⟩, each sum started from
  the zero word). The float words (0, 32768, +∞) are kept as words; nothing here evaluates them.
-/
import Idealize.ShloMosaic.PureOps.Ideal
import Idealize.ShloMosaic.Lib.ValueIdx

noncomputable section

open scoped BigOperators

namespace Cert.Chamfer

open Idealize.ShloMosaic Idealize.ShloMosaic.ValueIdx

/-- A batch of point clouds: 8 clouds of 4096 points in 3 coordinates. -/
abbrev Cloud : Shape := ⟨3, ![8, 4096, 3]⟩

/-- Every entry of the array is a real number (no infinity). -/
def Finite (x : Cloud.Idx → EReal) : Prop := ∀ i, ∃ r : ℝ, x i = (r : EReal)

/-- The words the two programs share, read at the extended reals. -/
abbrev zeroW : EReal := Ideal.ofBits .f32 0x00000000#32
abbrev countW : EReal := Ideal.ofBits .f32 0x47000000#32
abbrev topW : EReal := Ideal.ofBits .f32 0x7F800000#32

/-- The squared distance between ground-truth point `a` and predicted point `j` of batch `b`, as differences
    squared and added left to right. -/
def sqDist (g p : Cloud.Idx → EReal) (b : Fin 8) (a j : Fin 4096) : EReal :=
  (g (ix3 b a 0) - p (ix3 b j 0)) * (g (ix3 b a 0) - p (ix3 b j 0))
    + (g (ix3 b a 1) - p (ix3 b j 1)) * (g (ix3 b a 1) - p (ix3 b j 1))
    + (g (ix3 b a 2) - p (ix3 b j 2)) * (g (ix3 b a 2) - p (ix3 b j 2))

/-- The same distance expanded: ‖g‖² + ‖p‖² − 2⟨g, p⟩, the two norms summed from the zero word. -/
def exDist (g p : Cloud.Idx → EReal) (b : Fin 8) (a j : Fin 4096) : EReal :=
  ((zeroW + ∑ d : Fin 3, g (ix3 b a d) * g (ix3 b a d)) + (zeroW + ∑ d : Fin 3, p (ix3 b j d) * p (ix3 b j d)))
    - Ideal.ofBits .f32 0x40000000#32 * ∑ d : Fin 3, g (ix3 b a d) * p (ix3 b j d)

/-- The least of 4096 extended reals, folded from the +∞ word. -/
def least (f : Fin 4096 → EReal) : EReal := (Finset.univ : Finset (Fin 4096)).fold min topW f

/-- For each ground-truth point, the distance to its nearest predicted point. -/
def nearPred (D : Fin 8 → Fin 4096 → Fin 4096 → EReal) (b : Fin 8) (a : Fin 4096) : EReal := least fun j => D b a j
/-- For each predicted point, the distance to its nearest ground-truth point. -/
def nearTruth (D : Fin 8 → Fin 4096 → Fin 4096 → EReal) (b : Fin 8) (j : Fin 4096) : EReal := least fun a => D b a j

/-- The mean of 8·4096 values: their total from the zero word, divided by the word 32768. -/
def mean (f : Fin 8 → Fin 4096 → EReal) : EReal := Ideal.div (zeroW + ∑ b : Fin 8, ∑ k : Fin 4096, f b k) countW

/-- The Chamfer loss of a table of squared distances: the larger of the two directed means. -/
def loss (D : Fin 8 → Fin 4096 → Fin 4096 → EReal) : EReal := max (mean (nearTruth D)) (mean (nearPred D))

end Cert.Chamfer

end
-- ==== Proof.TileValues.lean ====
/-
  The kernel body's payloads read at an index, at the extended reals. A ground-truth block `g` is 1 × 256 × 3 (256
  rows, three coordinates), a predicted block `p` is 1 × 3 × 4096 (the coordinates along the rows, 4096 points along
  the lanes). The distance tile is `tileDist g p r j = ∑_d (g r d − p d j)²`, the three squares added left to right;
  the row payload is its least over the 4096 lanes, the column payload its least over the 256 rows, both folded from
  the +∞ word; the accumulating payload lowers the held value by the column payload; the last payload copies.
-/
import proofs.«147637_j66271345377749_1_alg».proof.Proof.Gen.KernelIdeal.Skeleton
import proofs.«147637_j66271345377749_1_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValues

open Idealize.ShloMosaic Idealize.ShloMosaic.ValueIdx Cert.KernelIdeal Cert.KernelIdeal.Gen

/-- The squared distance between row `r` of the ground-truth block and lane `j` of the predicted block. -/
def tileDist (g : Vec Ideal S1x256x3 .f32) (p : Vec Ideal S1x3x4096 .f32) (r : Fin 256) (j : Fin 4096) : EReal :=
  (g (ix3 0 r 0) - p (ix3 0 0 j)) * (g (ix3 0 r 0) - p (ix3 0 0 j))
    + (g (ix3 0 r 1) - p (ix3 0 1 j)) * (g (ix3 0 r 1) - p (ix3 0 1 j))
    + (g (ix3 0 r 2) - p (ix3 0 2 j)) * (g (ix3 0 r 2) - p (ix3 0 2 j))

/-! ## Layout chains read at an index -/

/-- Coordinate `d` of row `r` of the ground-truth block, spread along the lanes: the block with its unit axis dropped,
    column `o = d` cut out, and that column repeated over the 4096 lanes, reads `g (0, r, d)` at `(r, j)`. -/
theorem gcol_apply (g : Vec Ideal S1x256x3 .f32) (o : Nat) (d : Fin 3) (hd : d.val = o)
    (hc : S1x256x3.ShapeCasts S256x3) (hs : S256x3.Slices ![0, o] S256x1) (hb : S256x1.Broadcasts S256x4096)
    (r : Fin 256) (j : Fin 4096) :
    broadcastTo S256x4096 (extractStridedSlice S256x1 ![0, o] (shapeCast S256x3 g hc) hs) hb (ix2 r j)
      = g (ix3 0 r d) := by
  refine (broadcastTo_apply _ hb (ix2 r j) (ix2 r (0 : Fin 1)) ?_).trans ?_
  · intro a
    match a with
    | ⟨0, _⟩ => rfl
    | ⟨1, _⟩ => rfl
  refine (slice2_axis1_apply o _ hs r (0 : Fin 1) d ?_).trans ?_
  · show d.val = o + 0
    omega
  exact shapeCast_1ab_ab_apply g hc r d

/-- Coordinate `d` of lane `j` of the predicted block, spread down the rows: the block with its unit axis dropped,
    row `o = d` cut out, and that row repeated over the 256 rows, reads `p (0, d, j)` at `(r, j)`. -/
theorem prow_apply (p : Vec Ideal S1x3x4096 .f32) (o : Nat) (d : Fin 3) (hd : d.val = o)
    (hc : S1x3x4096.ShapeCasts S3x4096) (hs : S3x4096.Slices ![o, 0] S1x4096) (hb : S1x4096.Broadcasts S256x4096)
    (r : Fin 256) (j : Fin 4096) :
    broadcastTo S256x4096 (extractStridedSlice S1x4096 ![o, 0] (shapeCast S3x4096 p hc) hs) hb (ix2 r j)
      = p (ix3 0 d j) := by
  refine (broadcastTo_1b_ab_apply _ hb r j).trans ?_
  refine (slice2_axis0_apply o _ hs (0 : Fin 1) j d ?_).trans ?_
  · show d.val = o + 0
    omega
  exact shapeCast_1ab_ab_apply p hc d j

/-- The distance tile at (r, j). -/
theorem dist_apply (g : Vec Ideal S1x256x3 .f32) (p : Vec Ideal S1x3x4096 .f32) (r : Fin 256) (j : Fin 4096) :
    k0_pay2 (F := Ideal) g p (ix2 r j) = tileDist g p r j := by
  unfold k0_pay2 tileDist
  simp only [addf_apply, mulf_apply, subf_apply]
  rw [gcol_apply g 0 0 rfl, gcol_apply g 1 1 rfl, gcol_apply g 2 2 rfl,
    prow_apply p 0 0 rfl, prow_apply p 1 1 rfl, prow_apply p 2 2 rfl]

/-! ## A minimum over one axis -/

/-- A `vector.multi_reduction <minimumf>` over one axis, read at the extended reals: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `r` with lane `k` put back is `(r, k)`. -/
theorem lift_row (h : S256x4096.Reduces [1] S256) (r : Fin 256) (k : Fin (S256x4096.size 1)) :
    h.lift (ix1 r) k = ix2 r (⟨k.val, k.isLt⟩ : Fin 4096) := by
  funext c; apply Fin.ext
  fin_cases c <;> rfl

/-- Lane `j` with row `k` put back is `(k, j)`. -/
theorem lift_col (h : S256x4096.Reduces [0] S4096) (j : Fin 4096) (k : Fin (S256x4096.size 0)) :
    h.lift (ix1 j) k = ix2 (⟨k.val, k.isLt⟩ : Fin 256) j := by
  funext c; apply Fin.ext
  fin_cases c <;> rfl

/-- The least of each row of a 256 × 4096 tile, folded from the +∞ word. -/
theorem rowMin_apply (D : FVec Ideal S256x4096 .f32) (h : S256x4096.Reduces [1] S256) (hφ : FKind.Formats .f32)
    (hacc : (0x7F800000#32 : BitVec 32) = FKind.minimumf.neutral .f32 hφ) (r : Fin 256) :
    multiReduction .minimumf [1] S256 D 0x7F800000#32 h hφ hacc (ix1 r)
      = (Finset.univ : Finset (Fin 4096)).fold min Cert.Chamfer.topW fun j => D (ix2 r j) := by
  refine (multiReduction_minimumf_single D _ h hφ hacc (ix1 r)).trans ?_
  have hf : (D ∘ h.lift (ix1 r)) = fun k : Fin 4096 => D (ix2 r k) := funext fun k => congrArg D (lift_row h r k)
  exact congrArg (fun f => Finset.fold min Cert.Chamfer.topW f (Finset.univ : Finset (Fin 4096))) hf

/-- The least of each column of a 256 × 4096 tile, folded from the +∞ word. -/
theorem colMin_apply (D : FVec Ideal S256x4096 .f32) (h : S256x4096.Reduces [0] S4096) (hφ : FKind.Formats .f32)
    (hacc : (0x7F800000#32 : BitVec 32) = FKind.minimumf.neutral .f32 hφ) (j : Fin 4096) :
    multiReduction .minimumf [0] S4096 D 0x7F800000#32 h hφ hacc (ix1 j)
      = (Finset.univ : Finset (Fin 256)).fold min Cert.Chamfer.topW fun r => D (ix2 r j) := by
  refine (multiReduction_minimumf_single D _ h hφ hacc (ix1 j)).trans ?_
  have hf : (D ∘ h.lift (ix1 j)) = fun k : Fin 256 => D (ix2 k j) := funext fun k => congrArg D (lift_col h j k)
  exact congrArg (fun f => Finset.fold min Cert.Chamfer.topW f (Finset.univ : Finset (Fin 256))) hf

/-- A vector of 256 entries cast to one column, read at `(r, 0)`, is entry `r`: the two row-major positions are
    `r` and `r · 1 + 0`. -/
theorem shapeCast_col_apply (z : FVec Ideal S256 .f32) (h : S256.ShapeCasts S256x1) (r : Fin 256) (u : Fin 1) :
    shapeCast S256x1 z h (ix2 r u) = z (ix1 r) :=
  shapeCast_apply z h _ _ (by
    have hu : u.val = 0 := by omega
    rw [Shape.rowMajor_val_one, Shape.rowMajor_val_two]
    show r.val = r.val * 1 + u.val
    rw [hu, Nat.mul_one, Nat.add_zero])

/-- The row payload at row `r`: the least of the row of the tile. -/
theorem rowLeast_apply (g : Vec Ideal S1x256x3 .f32) (p : Vec Ideal S1x3x4096 .f32) (r : Fin 256) :
    k0_pay3 (F := Ideal) g p (ix3 0 r 0)
      = (Finset.univ : Finset (Fin 4096)).fold min Cert.Chamfer.topW fun j => tileDist g p r j := by
  unfold k0_pay3
  refine (shapeCast_ab_1ab_apply _ _ (0 : Fin 1) r (0 : Fin 1)).trans ?_
  refine (shapeCast_col_apply _ _ r (0 : Fin 1)).trans ?_
  refine (rowMin_apply _ _ _ _ r).trans ?_
  exact congrArg (fun f => Finset.fold min Cert.Chamfer.topW f (Finset.univ : Finset (Fin 4096)))
    (funext fun j => dist_apply g p r j)

/-- The column payload at lane `j`: the least of the column of the tile. -/
theorem colLeast_apply (g : Vec Ideal S1x256x3 .f32) (p : Vec Ideal S1x3x4096 .f32) (j : Fin 4096) :
    k0_pay4 (F := Ideal) g p (ix2 0 j)
      = (Finset.univ : Finset (Fin 256)).fold min Cert.Chamfer.topW fun r => tileDist g p r j := by
  unfold k0_pay4
  refine (shapeCast_a_1a_apply _ _ (0 : Fin 1) j).trans ?_
  refine (colMin_apply _ _ _ _ j).trans ?_
  exact congrArg (fun f => Finset.fold min Cert.Chamfer.topW f (Finset.univ : Finset (Fin 256)))
    (funext fun r => dist_apply g p r j)

/-- The reset payload is the column payload. -/
theorem reset_apply (g : Vec Ideal S1x256x3 .f32) (p : Vec Ideal S1x3x4096 .f32) (j : Fin 4096) :
    k0_pay5 (F := Ideal) g p (ix2 0 j)
      = (Finset.univ : Finset (Fin 256)).fold min Cert.Chamfer.topW fun r => tileDist g p r j := by
  unfold k0_pay5
  refine (congrFun (shapeCast_self _ _) (ix2 0 j)).trans ?_
  exact colLeast_apply g p j

/-- The accumulating payload lowers what was held by the column payload. -/
theorem lower_apply (g : Vec Ideal S1x256x3 .f32) (p : Vec Ideal S1x3x4096 .f32) (acc : Vec Ideal S1x4096 .f32) (j : Fin 4096) :
    k0_pay6 (F := Ideal) g p acc (ix2 0 j)
      = min (acc (ix2 0 j)) ((Finset.univ : Finset (Fin 256)).fold min Cert.Chamfer.topW fun r => tileDist g p r j) := by
  unfold k0_pay6
  refine (congrFun (shapeCast_self _ _) (ix2 0 j)).trans ?_
  refine (minimumf_apply _ _ _).trans ?_
  exact congrArg (min (acc (ix2 0 j))) (colLeast_apply g p j)

/-- The last payload copies the held row into the 1 × 1 × 4096 block. -/
theorem copy_apply (acc : Vec Ideal S1x4096 .f32) (j : Fin 4096) :
    k0_pay1 (F := Ideal) acc (ix3 0 0 j) = acc (ix2 0 j) := by
  unfold k0_pay1
  exact shapeCast_ab_1ab_apply acc _ (0 : Fin 1) (0 : Fin 1) j

end Cert.KernelIdeal.TileValues

end
-- ==== Proof.BlockReads.lean ====
/-
  The two input blocks of a grid point, read at an index, as entries of the program's two argument arrays. Point `t`
  of the row-major 8 × 16 grid is tile `t mod 16` of batch `t / 16`. The first operand is the ground truth (argument
  1): its block at `t` is rows `256 (t mod 16) …` of batch `t / 16`. The second operand is the predicted points
  (argument 0) transposed by the one host operation before the region, so that the coordinates run along the rows: its
  block at `t` is the whole transposed cloud of batch `t / 16`, and entry (d, j) of it is coordinate `d` of predicted
  point `j`. Hence the tile's distances are the specification's squared distances at rows `256 (t mod 16) + r`.
-/
import proofs.«147637_j66271345377749_1_alg».proof.Proof.IdealSweep
import proofs.«147637_j66271345377749_1_alg».proof.Proof.TileValues
import proofs.«147637_j66271345377749_1_alg».proof.Proof.ChamferSpec
import Idealize.ShloMosaic.Lib.Pipeline.Value
import Idealize.ShloMosaic.Lib.ValueIdx
import Idealize.ShloMosaic.Lib.StableHlo.Run

noncomputable section

namespace Cert.KernelIdeal.BlockReads

open Idealize.ShloMosaic Idealize.ShloMosaic.TcCoe Idealize.SL.Sem Idealize.ShloMosaic.ValueIdx
open Cert.KernelIdeal Cert.KernelIdeal.Gen Cert.KernelIdeal.Sweep Cert.KernelIdeal.TileValues

variable (m : (ℓ : Loc nD τ sig) → Buf (Elt Ideal) ℓ)

/-- The batch of point `t`. -/
abbrev batchOf (t : Fin cfg0.N) : Fin 8 := ⟨t.val / 16, by have := lt_of_lt_of_eq t.isLt (show cfg0.N = 128 from N_0); omega⟩
/-- Row `r` of point `t`'s tile, as a row of the batch's cloud. -/
abbrev rowOf (t : Fin cfg0.N) (r : Fin 256) : Fin 4096 :=
  ⟨256 * (t.val % 16) + r.val, by have := r.isLt; omega⟩

/-- The two input windows' block indices at point `t` of the row-major 8 × 16 grid, decided over the grid: the
    ground-truth window sits at (batch, tile, 0), the predicted window at (batch, 0, 0). -/
theorem idx_g : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)
theorem idx_p : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- The array the predicted window reads is the transpose of argument 0 that the one host operation before the
    region wrote: coordinates along axis 1, points along axis 2. -/
theorem v0_eq (c : Dev nD) : (V m c main_v0 : S8x3x4096.Idx → EReal)
    = transpose S8x3x4096 [0, 2, 1] (m ((c : Thread nD τ).loc main_arg0)) transposes_S8x4096x3_S8x3x4096_0_2_1 := by
  show StableHlo.after hostOps0 (fun b => m (c, b)) (Proc.devRef .tc main_v0) = _
  after_results

/-- The ground-truth block of point `t` at (row r, coordinate d) is the ground truth (argument 1) at
    (batch, 256·tile + r, d). -/
theorem gBlk_apply (c : Dev nD) (t : Fin cfg0.N) (r : Fin 256) (d : Fin 3) :
    gBlk m c t (ix3 0 r d) = m ((c : Thread nD τ).loc main_arg1) (ix3 (batchOf t) (rowOf t r) d) := by
  obtain ⟨h0, h1, h2⟩ := idx_g t
  show iblk m c 0 t (ix3 0 r d) = _
  unfold iblk
  rw [View.read_apply]
  show V m c main_arg1 (((cfg0.win 0).blk t).view.emb (ix3 0 r d)) = _
  rw [V_main_arg1]
  refine congrArg (m ((c : Thread nD τ).loc main_arg1)) (funext fun a => Fin.ext ?_)
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 3 + 1 * d.val = d.val; omega

/-- The predicted block of point `t` at (coordinate d, lane j) is the predicted points (argument 0) at
    (batch, j, d): the block is read off the transposed array. -/
theorem pBlk_apply (c : Dev nD) (t : Fin cfg0.N) (d : Fin 3) (j : Fin 4096) :
    pBlk m c t (ix3 0 d j) = m ((c : Thread nD τ).loc main_arg0) (ix3 (batchOf t) j d) := by
  obtain ⟨h0, h1, h2⟩ := idx_p t
  show iblk m c 1 t (ix3 0 d j) = _
  unfold iblk
  rw [View.read_apply]
  show (V m c main_v0 : S8x3x4096.Idx → EReal) (((cfg0.win 1).blk t).view.emb (ix3 0 d j)) = _
  rw [v0_eq]
  refine transpose_apply _ _ _ _ (ix3 (batchOf t) j d) (fun b => ?_)
  match b with
  | ⟨0, _⟩ => show t.val / 16 = win0_1.index t (0 : Fin 3) * 1 + 1 * 0; omega
  | ⟨1, _⟩ => show d.val = win0_1.index t (1 : Fin 3) * 3 + 1 * d.val; omega
  | ⟨2, _⟩ => show j.val = win0_1.index t (2 : Fin 3) * 4096 + 1 * j.val; omega

/-- So the tile's distances are the specification's, at the tile's rows. -/
theorem tileDist_eq (c : Dev nD) (t : Fin cfg0.N) (r : Fin 256) (j : Fin 4096) :
    tileDist (gBlk m c t) (pBlk m c t) r j
      = Cert.Chamfer.sqDist (m ((c : Thread nD τ).loc main_arg1)) (m ((c : Thread nD τ).loc main_arg0)) (batchOf t) (rowOf t r) j := by
  unfold tileDist Cert.Chamfer.sqDist
  rw [gBlk_apply m c t r 0, gBlk_apply m c t r 1, gBlk_apply m c t r 2, pBlk_apply m c t 0 j, pBlk_apply m c t 1 j,
    pBlk_apply m c t 2 j]

end Cert.KernelIdeal.BlockReads

end
-- ==== Proof.ChamferLaws.lean ====
/-
  Laws of the Chamfer specification (ChamferSpec.lean) on the extended reals.

  * On finite inputs the expanded squared distance ‖g‖² + ‖p‖² − 2⟨g, p⟩ is the sum of squared differences:
    over the reals this is `ring`; the extended reals need the inputs real, because subtraction and
    distributivity fail at the infinities.
  * The least of 4096 values is reached tile by tile: taking the least of each block of 256 consecutive values
    and lowering a running minimum through the 16 blocks ends at the least of all 4096 (`min` is associative,
    commutative and idempotent, and the blocks cover `Fin 4096`).
  * A total over an 8 × 4096 table is the same whether the table is laid out as 8 × 4096, 8 × 4096 × 1 or
    8 × 1 × 4096.
-/
import proofs.«147637_j66271345377749_1_alg».proof.Proof.ChamferSpec
import Mathlib.Data.EReal.Operations
import Mathlib.Tactic.Ring
import Mathlib.Tactic.FinCases
import Mathlib.Data.Finset.Fold
import Mathlib.Algebra.BigOperators.Fin
import Mathlib.Order.Basic

noncomputable section

open scoped BigOperators

namespace Cert.Chamfer

open Idealize.ShloMosaic Idealize.ShloMosaic.ValueIdx

/-! ## The two arrangements of the squared distance agree on finite inputs -/

/-- The zero word denotes `0`. -/
theorem zeroW_eq : zeroW = 0 := by
  simp [Ideal.ofBits, Ideal.ieee]

/-- The word `0x40000000` (sign 0, exponent 128, fraction 0) denotes the real `2`. -/
theorem twoW_eq : Ideal.ofBits .f32 0x40000000#32 = ((2 : ℝ) : EReal) := by
  simp [Ideal.ofBits, Ideal.ieee, -EReal.coe_mul]; norm_num

/-- The word `0x7F800000` (all-ones exponent, fraction 0) denotes `+∞`. -/
theorem topW_eq : topW = ⊤ := by
  simp [Ideal.ofBits, Ideal.ieee]

theorem exDist_eq_sqDist (g p : Cloud.Idx → EReal) (hg : Finite g) (hp : Finite p) :
    exDist g p = sqDist g p := by
  funext b a j
  -- real witnesses for every entry
  choose G hG using hg
  choose P hP using hp
  unfold exDist sqDist
  rw [zeroW_eq, twoW_eq, Fin.sum_univ_three, Fin.sum_univ_three, Fin.sum_univ_three]
  simp only [hG, hP, zero_add]
  -- every term is now the image of a real: gather the whole expression under one coercion
  simp only [← EReal.coe_mul, ← EReal.coe_add, ← EReal.coe_sub]
  congr 1
  ring

/-! ## The least of 4096 values, tile by tile -/

/-- The least of the 256 values of tile `n` (values `256 n … 256 n + 255`), folded from the +∞ word. -/
def tileLeast (f : Fin 4096 → EReal) (n : ℕ) (hn : n < 16) : EReal :=
  (Finset.univ : Finset (Fin 256)).fold min topW fun r => f ⟨256 * n + r.val, by have := r.isLt; omega⟩

/-- The running minimum through tiles `0 … n`: tile 0's least, lowered by each later tile's. -/
def leastUpTo (f : Fin 4096 → EReal) : (n : ℕ) → n < 16 → EReal
  | 0, h => tileLeast f 0 h
  | n + 1, h => min (leastUpTo f n (Nat.lt_of_succ_lt h)) (tileLeast f (n + 1) h)

/-- A bound lies below the least of all values exactly when it lies below every value. -/
theorem le_least_iff (f : Fin 4096 → EReal) (c : EReal) : c ≤ least f ↔ ∀ a, c ≤ f a := by
  unfold least
  rw [Finset.le_fold_min, topW_eq]
  simp

/-- A bound lies below a tile's least exactly when it lies below each of the tile's 256 values. -/
theorem le_tileLeast_iff (f : Fin 4096 → EReal) (n : ℕ) (hn : n < 16) (c : EReal) :
    c ≤ tileLeast f n hn ↔
      ∀ r : Fin 256, c ≤ f ⟨256 * n + r.val, by have := r.isLt; omega⟩ := by
  unfold tileLeast
  rw [Finset.le_fold_min, topW_eq]
  simp

/-- A bound lies below the running minimum through tiles `0 … n` exactly when it lies below every value
    whose position is before the end of tile `n`: a position below `256 (n + 1)` is either below `256 n`
    (an earlier tile) or `256 n + r` with `r < 256` (tile `n` itself). -/
theorem le_leastUpTo_iff (f : Fin 4096 → EReal) (c : EReal) :
    ∀ (n : ℕ) (h : n < 16), c ≤ leastUpTo f n h ↔ ∀ a : Fin 4096, a.val < 256 * (n + 1) → c ≤ f a
  | 0, h => by
    rw [leastUpTo, le_tileLeast_iff]
    constructor
    · intro H a ha
      have e : (⟨256 * 0 + (⟨a.val, by omega⟩ : Fin 256).val, by omega⟩ : Fin 4096) = a :=
        Fin.ext (by simp)
      exact e ▸ H ⟨a.val, by omega⟩
    · intro H r
      exact H _ (by have := r.isLt; simp only []; omega)
  | n + 1, h => by
    rw [leastUpTo, le_min_iff, le_leastUpTo_iff f c n (Nat.lt_of_succ_lt h), le_tileLeast_iff]
    constructor
    · rintro ⟨H1, H2⟩ a ha
      by_cases hlt : a.val < 256 * (n + 1)
      · exact H1 a hlt
      · have e : (⟨256 * (n + 1) + (⟨a.val - 256 * (n + 1), by omega⟩ : Fin 256).val, by omega⟩ : Fin 4096) = a :=
          Fin.ext (by simp only []; omega)
        exact e ▸ H2 ⟨a.val - 256 * (n + 1), by omega⟩
    · intro H
      refine ⟨fun a ha => H a (by omega), fun r => H _ (by have := r.isLt; simp only []; omega)⟩

/-- After the sixteenth tile the running minimum is the least of all 4096 values. -/
theorem leastUpTo_last (f : Fin 4096 → EReal) : leastUpTo f 15 (by norm_num) = least f := by
  refine eq_of_forall_le_iff fun c => ?_
  rw [le_leastUpTo_iff, le_least_iff]
  constructor
  · intro H a
    exact H a (by have := a.isLt; omega)
  · intro H a _
    exact H a

/-! ## Totals over the three layouts of an 8 × 4096 table -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

theorem sum_rows (x : (⟨3, ![8, 4096, 1]⟩ : Shape).Idx → EReal) :
    ∑ i, x i = ∑ b : Fin 8, ∑ a : Fin 4096, x (ix3 b a 0) := by
  -- the last axis has the single coordinate 0
  rw [sum_idx3]
  simp only [Fin.sum_univ_one]

theorem sum_cols (x : (⟨3, ![8, 1, 4096]⟩ : Shape).Idx → EReal) :
    ∑ i, x i = ∑ b : Fin 8, ∑ j : Fin 4096, x (ix3 b 0 j) := by
  -- the middle axis has the single coordinate 0
  rw [sum_idx3]
  simp only [Fin.sum_univ_one]

end Cert.Chamfer

end
-- ==== Proof.IdealValue.lean ====
/-
  What the Chamfer kernel's two result arrays hold after the run, and from them the program's scalar result.

  Row window (8 × 4096 × 1): point `t` writes back rows `256 (t mod 16) …` of batch `t / 16`, each the least over
  the 4096 predicted points of the squared distance: together the blocks tile the array, which ends at
  `nearPred (sqDist g p)`. Column window (8 × 1 × 4096): the scratch after point `t` is the running minimum
  `leastUpTo` over tiles `0 … t mod 16` of the batch (induction on the point); at the batch's last tile that is the least
  over all 4096 ground-truth rows (`leastUpTo_last`) and is written back as the batch's block: the array ends at
  `nearTruth (sqDist g p)`. The host operations after the region total each array from the zero word, divide by the
  word 32768 and take the larger quotient: `loss (sqDist g p)`.
-/
import proofs.«147637_j66271345377749_1_alg».proof.Proof.IdealSweep
import proofs.«147637_j66271345377749_1_alg».proof.Proof.TileValues
import proofs.«147637_j66271345377749_1_alg».proof.Proof.BlockReads
import proofs.«147637_j66271345377749_1_alg».proof.Proof.ChamferLaws
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

set_option maxRecDepth 16384

noncomputable section

open scoped BigOperators

namespace Cert.KernelIdeal.ChamferValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Sweep Cert.KernelIdeal.TileValues Cert.KernelIdeal.BlockReads
open Cert.Chamfer

variable (m : (ℓ : Loc nD τ sig) → Buf (Elt Ideal) ℓ) (ρ : Dev nD → PrngReg)

/-- The ground truth and the predicted points on core `c`: the program's second and first argument. -/
abbrev truth (c : Dev nD) : Cloud.Idx → EReal := m ((c : Thread nD τ).loc main_arg1)
abbrev pred (c : Dev nD) : Cloud.Idx → EReal := m ((c : Thread nD τ).loc main_arg0)

/-! ## The running minimum, re-indexed -/

theorem leastUpTo_first (f : Fin 4096 → EReal) (k : ℕ) (hk : k < 16) (e : k = 0) : leastUpTo f k hk = tileLeast f k hk := by
  subst e; rfl

theorem leastUpTo_next (f : Fin 4096 → EReal) (k k' : ℕ) (hk : k < 16) (hk' : k' < 16) (e : k' = k + 1) :
    leastUpTo f k' hk' = min (leastUpTo f k hk) (tileLeast f k' hk') := by
  subst e; rfl

theorem leastUpTo_fifteen (f : Fin 4096 → EReal) (k : ℕ) (hk : k < 16) (e : k = 15) : leastUpTo f k hk = least f := by
  subst e; exact leastUpTo_last f

/-! ## The scratch after each point -/

/-- The column minima of point `t`'s tile are the least of tile `t mod 16` of the batch's squared distances. -/
theorem tile_eq (c : Dev nD) (t : Fin cfg0.N) (j : Fin 4096) :
    ((Finset.univ : Finset (Fin 256)).fold min topW fun r => tileDist (gBlk m c t) (pBlk m c t) r j)
      = tileLeast (fun a => sqDist (truth m c) (pred m c) (batchOf t) a j) (t.val % 16) (Nat.mod_lt _ (by norm_num)) := by
  unfold tileLeast
  congr 1
  funext r
  exact tileDist_eq m c t r j

/-- After point `n` the scratch holds, at lane `j`, the running minimum through tiles `0 … n mod 16` of the batch's
    squared distances to predicted point `j`. -/
theorem colAcc_apply (c : Dev nD) : ∀ (n : ℕ) (h : n < cfg0.N) (j : Fin 4096),
    colAcc m c n h (ix2 0 j)
      = leastUpTo (fun a => sqDist (truth m c) (pred m c) (batchOf ⟨n, h⟩) a j) (n % 16) (Nat.mod_lt _ (by norm_num))
  | 0, h, j => by
    rw [colAcc_reset m c ⟨0, h⟩ rfl, reset_apply, tile_eq]
    exact (leastUpTo_first _ _ _ rfl).symm
  | n + 1, h, j => by
    have hN : n + 1 < 128 := lt_of_lt_of_eq h (show cfg0.N = 128 from N_0)
    by_cases hr : (n + 1) % 16 = 0
    · rw [colAcc_reset m c ⟨n + 1, h⟩ hr, reset_apply, tile_eq]
      exact (leastUpTo_first _ _ _ hr).symm
    · rw [colAcc_lower m c ⟨n + 1, h⟩ hr, lower_apply, tile_eq]
      show min (colAcc m c n _ (ix2 0 j)) _ = _
      rw [colAcc_apply c n (Nat.lt_of_succ_lt h) j]
      have hb : batchOf ⟨n + 1, h⟩ = batchOf ⟨n, Nat.lt_of_succ_lt h⟩ := Fin.ext (by show (n + 1) / 16 = n / 16; omega)
      rw [hb]
      exact (leastUpTo_next _ (n % 16) ((n + 1) % 16) _ _ (by omega)).symm

/-! ## The row window's array -/

/-- Each ground-truth point's distance to its nearest predicted point, laid out 8 × 4096 × 1. -/
def rowArr (c : Dev nD) : S8x4096x1.Idx → EReal :=
  fun i => nearPred (sqDist (truth m c) (pred m c)) ⟨(i 0).val, (i 0).isLt⟩ ⟨(i 1).val, (i 1).isLt⟩

/-- The row window's block index at point `t`: (batch, tile, 0). -/
theorem idx_row : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, win0_2.index t (0 : Fin 3) = t.val / 16 ∧ win0_2.index t (1 : Fin 3) = t.val % 16
    ∧ win0_2.index t (2 : Fin 3) = 0)

/-- What point `t` writes back of the row window is block `t` of `rowArr`. -/
theorem flushed_row (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after_row]
  funext y
  obtain ⟨y0, r, y2, rfl⟩ : ∃ (y0 : Fin 1) (r : Fin 256) (y2 : Fin 1), y = ix3 y0 r y2 := ⟨y 0, y 1, y 2, eq_ix3 y⟩
  obtain rfl : y0 = 0 := Subsingleton.elim _ _
  obtain rfl : y2 = 0 := Subsingleton.elim _ _
  show k0_pay3 (gBlk m c t) (pBlk m c t) (ix3 0 r 0) = rowArr m c (((cfg0.win 2).blk t).view.emb (ix3 0 r 0))
  rw [rowLeast_apply]
  unfold rowArr nearPred least
  congr 1
  funext j
  rw [tileDist_eq]
  obtain ⟨e0, e1, e2⟩ := idx_row t
  congr 1
  · apply Fin.ext
    show t.val / 16 = win0_2.index t (0 : Fin 3) * 1 + 1 * 0
    omega
  · apply Fin.ext
    show 256 * (t.val % 16) + r.val = win0_2.index t (1 : Fin 3) * 256 + 1 * r.val
    omega

/-- An index of the row array is in point `t`'s block iff each coordinate is in the block's range. -/
theorem mem_row (t : Fin cfg0.N) (i : S8x4096x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v1_0).slice (win0_2.rect t)).set ↔ _
  rw [View.set_slice_whole, Rect.mem_set_unit]
  exact Iff.rfl

/-- The row array after the run. -/
theorem final_row (c : Dev nD) : (dats m 0 c).arrAt 2 cfg0.N = rowArr m c :=
  (dats m 0 c).arrAt_eq_of_cover 2 (rowArr m c) (fun t _ => flushed_row m c t) fun i => by
    have h0 : (i 0).val < 8 := (i 0).isLt
    have h1 : (i 1).val < 4096 := (i 1).isLt
    have h2 : (i 2).val < 1 := (i 2).isLt
    refine ⟨⟨16 * (i 0).val + (i 1).val / 256, by rw [show cfg0.N = 128 from N_0]; omega⟩, flush0_2 _, ?_⟩
    rw [mem_row]
    obtain ⟨e0, e1, e2⟩ := idx_row ⟨16 * (i 0).val + (i 1).val / 256, by rw [show cfg0.N = 128 from N_0]; omega⟩
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 256 ≤ (i 1).val ∧ (i 1).val < win0_2.index _ (1 : Fin 3) * 256 + 256
      rw [e1]; dsimp only; omega
    | ⟨2, _⟩ =>
      show win0_2.index _ (2 : Fin 3) * 1 ≤ (i 2).val ∧ (i 2).val < win0_2.index _ (2 : Fin 3) * 1 + 1
      rw [e2]; omega

/-! ## The column window's array -/

/-- Each predicted point's distance to its nearest ground-truth point, laid out 8 × 1 × 4096. -/
def colArr (c : Dev nD) : S8x1x4096.Idx → EReal :=
  fun i => nearTruth (sqDist (truth m c) (pred m c)) ⟨(i 0).val, (i 0).isLt⟩ ⟨(i 2).val, (i 2).isLt⟩

/-- The column window's block index at point `t`: (batch, 0, 0). -/
theorem idx_col : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- What a batch's last tile writes back of the column window is the batch's block of `colArr`. -/
theorem flushed_col (c : Dev nD) (t : Fin cfg0.N) (hf : (cfg0.win 3).flush t = true) :
    (dats m 0 c).flushed 3 t = ((cfg0.win 3).blk t).view.read (Elt Ideal) (colArr m c) := by
  have hL : t.val % 16 = 15 := (flush0_3 t).mp hf
  show (cfg0.win 3).cut (grid0.coords t) ((dats m 0 c).after 3 t) = _
  rw [after_col]
  funext y
  obtain ⟨y0, y1, j, rfl⟩ : ∃ (y0 : Fin 1) (y1 : Fin 1) (j : Fin 4096), y = ix3 y0 y1 j := ⟨y 0, y 1, y 2, eq_ix3 y⟩
  obtain rfl : y0 = 0 := Subsingleton.elim _ _
  obtain rfl : y1 = 0 := Subsingleton.elim _ _
  show k0_pay1 (colAcc m c t.val t.isLt) (ix3 0 0 j) = colArr m c (((cfg0.win 3).blk t).view.emb (ix3 0 0 j))
  rw [copy_apply, colAcc_apply, leastUpTo_fifteen _ _ _ hL]
  unfold colArr nearTruth
  obtain ⟨e0, e1, e2⟩ := idx_col t
  congr 1
  funext a
  congr 1
  · apply Fin.ext
    show t.val / 16 = win0_3.index t (0 : Fin 3) * 1 + 1 * 0
    omega
  · apply Fin.ext
    show j.val = win0_3.index t (2 : Fin 3) * 4096 + 1 * j.val
    omega

theorem mem_col (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The column array after the run. -/
theorem final_col (c : Dev nD) : (dats m 0 c).arrAt 3 cfg0.N = colArr m c :=
  (dats m 0 c).arrAt_eq_of_cover 3 (colArr m c) (fun t hf => flushed_col m c t hf) fun i => by
    have h0 : (i 0).val < 8 := (i 0).isLt
    have h1 : (i 1).val < 1 := (i 1).isLt
    have h2 : (i 2).val < 4096 := (i 2).isLt
    refine ⟨⟨16 * (i 0).val + 15, by rw [show cfg0.N = 128 from N_0]; omega⟩, (flush0_3 _).mpr (by dsimp only; omega), ?_⟩
    rw [mem_col]
    obtain ⟨e0, e1, e2⟩ := idx_col ⟨16 * (i 0).val + 15, by rw [show cfg0.N = 128 from N_0]; omega⟩
    intro a
    match a with
    | ⟨0, _⟩ =>
      show win0_3.index _ (0 : Fin 3) * 1 ≤ (i 0).val ∧ (i 0).val < win0_3.index _ (0 : Fin 3) * 1 + 1
      rw [e0]; dsimp only; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 4096 ≤ (i 2).val ∧ (i 2).val < win0_3.index _ (2 : Fin 3) * 4096 + 4096
      rw [e2]; omega

/-! ## The program's result -/

/-- After the region the host totals each result array from the zero word, divides by the word 32768 and takes the
    larger quotient: the loss of the squared distances. -/
theorem tail_eq (c : Dev nD) :
    Pipeline.afterTail₀ cfgs (dats m) 0 (V0 m) [hostOps1] c main_v6
      = fun _ => loss (sqDist (truth m c) (pred m c)) := by
  unfold Pipeline.afterTail₀
  show StableHlo.after hostOps1 _ (Proc.devRef .tc main_v6) = _
  after_results
  have hcol : Pipeline.withArrays (cfgs 0).spec c (V0 m c) (fun w => (dats m 0 c).arrAt w (cfgs 0).N)
      (Proc.devRef .tc main_v1_1) = colArr m c :=
    (Pipeline.withArrays_arr spec0 launch0.win.arr_inj c _ _ 3).trans (final_col m c)
  have hrow : Pipeline.withArrays (cfgs 0).spec c (V0 m c) (fun w => (dats m 0 c).arrAt w (cfgs 0).N)
      (Proc.devRef .tc main_v1_0) = rowArr m c :=
    (Pipeline.withArrays_arr spec0 launch0.win.arr_inj c _ _ 2).trans (final_row m c)
  rw [hcol, hrow]
  funext i
  rw [maximumf_apply, hostDivf_apply, hostDivf_apply, hostReduceAdd_apply, hostReduceAdd_apply,
    Ideal.hostReduceAdd_total _ (fun b => b.elim0), Ideal.hostReduceAdd_total _ (fun b => b.elim0), sum_cols, sum_rows]
  rfl

/-- The run, read: the scalar result at the loss of the squared distances, the two arguments unchanged. -/
theorem run : θ_run defs (onTc (τ := τ) (main (F := Ideal))) ⟨m, fun _ => 0, ρ⟩ fun r => ∀ c : Dev nD,
      r.2.mem ((c.tc : Thread nD τ).loc main_v6) = (fun _ => loss (sqDist (truth m c) (pred m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.ChamferValue

end
-- ==== Proof.RefLoss.lean ====
/-
  The reference program's result is the Chamfer loss of the EXPANDED squared distances ‖g‖² + ‖p‖² − 2⟨g, p⟩ of its
  two arguments (argument 0 the predicted points, argument 1 the ground truth): its two norms are host sums over the
  coordinate axis from the zero word, its inner products one batched dot_general, its two directed minima host
  min-reduces from the +∞ word over the ground-truth axis and over the predicted axis, each mean a total over the
  8 × 4096 minima divided by the word 32768, the result the larger mean.
-/
import proofs.«147637_j66271345377749_1_alg».proof.Proof.Gen.ReferenceIdeal.Run
import proofs.«147637_j66271345377749_1_alg».proof.Proof.Gen.ReferenceIdeal.Read
import proofs.«147637_j66271345377749_1_alg».proof.Proof.ChamferSpec
import Idealize.ShloMosaic.PureOps.Ideal.Laws
import Idealize.ShloMosaic.Lib.IdealHost

noncomputable section

namespace Cert.ReferenceIdeal.RefLoss

open Cert.ReferenceIdeal Cert.ReferenceIdeal.Gen Idealize.ShloMosaic Idealize.ShloMosaic.ValueIdx

open scoped BigOperators

/-! ## The index maps of the broadcasts, the norms and the inner product, at explicit coordinates -/

private theorem idx_norm_g (b : Fin 8) (a j : Fin 4096) (k : Fin 3) :
    Read.idx_main_v1 (Read.idx_main_v5 (Read.idx_main_v7 (ix3 b a j))) k = ix3 b a k := by
  funext c; match c with | ⟨0, _⟩ => rfl | ⟨1, _⟩ => rfl | ⟨2, _⟩ => rfl

private theorem idx_norm_p (b : Fin 8) (a j : Fin 4096) (k : Fin 3) :
    Read.idx_main_v3 (Read.idx_main_v6 (Read.idx_main_v8 (ix3 b a j))) k = ix3 b j k := by
  funext c; match c with | ⟨0, _⟩ => rfl | ⟨1, _⟩ => rfl | ⟨2, _⟩ => rfl

private theorem idx_dot_g (b : Fin 8) (a j : Fin 4096) (k : Fin 3) :
    Read.lidx_main_v4 (ix3 b a j) k = ix3 b a k := by
  funext c; match c with | ⟨0, _⟩ => rfl | ⟨1, _⟩ => rfl | ⟨2, _⟩ => rfl

private theorem idx_dot_p (b : Fin 8) (a j : Fin 4096) (k : Fin 3) :
    Read.ridx_main_v4 (ix3 b a j) k = ix3 b j k := by
  funext c; match c with | ⟨0, _⟩ => rfl | ⟨1, _⟩ => rfl | ⟨2, _⟩ => rfl

/-- The reference's table of distances at (b, a, j) is the expanded squared distance between ground-truth point a
    and predicted point j of batch b: ‖g‖² + ‖p‖² − 2⟨g, p⟩ with g the second argument and p the first. -/
theorem v12_at (x0 x1 : FVec Ideal S8x4096x3 .f32) (b : Fin 8) (a j : Fin 4096) :
    Read.val_main_v12 (F := Ideal) x0 x1 (ix3 b a j) = Cert.Chamfer.exDist x1 x0 b a j := by
  rw [Read.val_main_v12_apply, Read.val_main_v9_apply, Read.val_main_v11_apply, Read.val_main_v7_apply,
    Read.val_main_v8_apply, Read.val_main_v5_apply, Read.val_main_v6_apply, Read.val_main_v10_apply,
    Read.val_main_cst_1_apply, Read.val_main_v4_apply, Read.val_main_v1_apply, Read.val_main_v3_apply,
    Read.val_main_cst_apply, Read.val_main_cst_0_apply]
  simp only [Read.val_main_v0_apply, Read.val_main_v2_apply, idx_norm_g, idx_norm_p, idx_dot_g, idx_dot_p]
  rfl

/-! ## The two directed minima -/

/-- The index over (b, j) with the ground-truth coordinate k put back on axis 1 is (b, k, j). -/
private theorem lift_truth (h : S8x4096x4096.Reduces [1] S8x4096) (b : Fin 8) (j : Fin 4096)
    (k : Fin (S8x4096x4096.size 1)) : h.lift (ix2 b j) k = ix3 b (⟨k.val, k.isLt⟩ : Fin 4096) j := by
  funext c; apply Fin.ext
  fin_cases c <;> rfl

/-- The index over (b, a) with the predicted coordinate k put back on axis 2 is (b, a, k). -/
private theorem lift_pred (h : S8x4096x4096.Reduces [2] S8x4096) (b : Fin 8) (a : Fin 4096)
    (k : Fin (S8x4096x4096.size 2)) : h.lift (ix2 b a) k = ix3 b a (⟨k.val, k.isLt⟩ : Fin 4096) := by
  funext c; apply Fin.ext
  fin_cases c <;> rfl

/-- The host's min-reduce over the ground-truth axis from the +∞ word, at (b, j), is the least over a of y (b, a, j). -/
private theorem min_truth (y : FVec Ideal S8x4096x4096 .f32) (b : Fin 8) (j : Fin 4096) :
    Host.reduce FloatOps.minimumf y (Read.val_main_cst_2 (F := Ideal)) reducesTo_S8x4096x4096_S8x4096_d1 h_S_ (ix2 b j)
      = Cert.Chamfer.least fun a => y (ix3 b a j) := by
  have h : S8x4096x4096.Reduces [1] S8x4096 := by decide
  rw [Host.reduce_eq_fold_single FloatOps.minimumf y _ reducesTo_S8x4096x4096_S8x4096_d1 h h_S_]
  have hf : (y ∘ h.lift (ix2 b j)) = fun a : Fin 4096 => y (ix3 b a j) :=
    funext fun k => congrArg y (lift_truth h b j k)
  exact congrArg (fun f => Finset.fold min Cert.Chamfer.topW f (Finset.univ : Finset (Fin 4096))) hf

/-- The host's min-reduce over the predicted axis from the +∞ word, at (b, a), is the least over j of y (b, a, j). -/
private theorem min_pred (y : FVec Ideal S8x4096x4096 .f32) (b : Fin 8) (a : Fin 4096) :
    Host.reduce FloatOps.minimumf y (Read.val_main_cst_5 (F := Ideal)) reducesTo_S8x4096x4096_S8x4096_d2 h_S_ (ix2 b a)
      = Cert.Chamfer.least fun j => y (ix3 b a j) := by
  have h : S8x4096x4096.Reduces [2] S8x4096 := by decide
  rw [Host.reduce_eq_fold_single FloatOps.minimumf y _ reducesTo_S8x4096x4096_S8x4096_d2 h h_S_]
  have hf : (y ∘ h.lift (ix2 b a)) = fun j : Fin 4096 => y (ix3 b a j) :=
    funext fun k => congrArg y (lift_pred h b a k)
  exact congrArg (fun f => Finset.fold min Cert.Chamfer.topW f (Finset.univ : Finset (Fin 4096))) hf

/-- The min-reduce over the ground-truth axis, at (b, j): the distance from predicted point j to its nearest ground-truth point. -/
theorem v13_at (x0 x1 : FVec Ideal S8x4096x3 .f32) (b : Fin 8) (j : Fin 4096) :
    Read.val_main_v13 (F := Ideal) x0 x1 (ix2 b j) = Cert.Chamfer.nearTruth (Cert.Chamfer.exDist x1 x0) b j := by
  unfold Read.val_main_v13
  rw [min_truth]
  unfold Cert.Chamfer.nearTruth
  exact congrArg Cert.Chamfer.least (funext fun a => v12_at x0 x1 b a j)

/-- The min-reduce over the predicted axis, at (b, a): the distance from ground-truth point a to its nearest predicted point. -/
theorem v16_at (x0 x1 : FVec Ideal S8x4096x3 .f32) (b : Fin 8) (a : Fin 4096) :
    Read.val_main_v16 (F := Ideal) x0 x1 (ix2 b a) = Cert.Chamfer.nearPred (Cert.Chamfer.exDist x1 x0) b a := by
  unfold Read.val_main_v16
  rw [min_pred]
  unfold Cert.Chamfer.nearPred
  exact congrArg Cert.Chamfer.least (funext fun j => v12_at x0 x1 b a j)

/-- The reference's last stage, as a function of its two arguments (`x0` the predicted points, `x1` the ground
    truth), is the loss of the expanded distances. -/
theorem result_eq (x0 x1 : FVec Ideal S8x4096x3 .f32) :
    Cert.ReferenceIdeal.Read.val_main_v19 (F := Ideal) x0 x1 = fun _ => Cert.Chamfer.loss (Cert.Chamfer.exDist x1 x0) := by
  -- the larger of two quotients; each numerator is the zero word plus the total over all (b, k) of a table of minima
  funext i
  rw [Read.val_main_v19_apply, Read.val_main_v15_apply, Read.val_main_v18_apply, Read.val_main_v14_apply,
    Read.val_main_v17_apply, Read.val_main_cst_3_apply, Read.val_main_cst_6_apply, Read.val_main_cst_4_apply,
    Read.val_main_cst_7_apply, sum_idx2, sum_idx2]
  simp only [v13_at, v16_at]
  rfl

end Cert.ReferenceIdeal.RefLoss

end
-- ==== Proof.FiniteInputs.lean ====
/-
  From the precondition to "every input entry is a real number". The precondition says, for each of the two
  arrays, that every entry's absolute value is below the +∞ word (an `and` over all entries, then the `and` of the
  two results); an extended real whose absolute value is below +∞ is a real.
-/
import proofs.«147637_j66271345377749_1_alg».proof.Defs
import proofs.«147637_j66271345377749_1_alg».proof.Proof.Gen.Pre_finite_inputs
import proofs.«147637_j66271345377749_1_alg».proof.Proof.ChamferSpec
import Idealize.ShloMosaic.Lib.ReduceAll

noncomputable section

namespace Cert.FiniteInputs

open Idealize.ShloMosaic Idealize.ShloMosaic.ValueIdx

/-- The scalar shape has one index. -/
private instance : Subsingleton Cert.Pre_finite_inputs.S_.Idx := ⟨fun _ _ => funext fun d => d.elim0⟩

/-- An extended real whose absolute value (the larger of itself and its negation) is strictly below the +∞ word is
    a real number: +∞ has absolute value +∞, and so has −∞. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the printed precondition evaluates to all ones on the two arrays, both are finite. -/
theorem of_pre [hP : Cert.Pre_finite_inputs.Facts] (x0 x1 : FVec Ideal Cert.Pre_finite_inputs.S8x4096x3 .f32)
    (h : Cert.Pre_finite_inputs.fn (F := Ideal) x0 x1 = fun _ => 1#1) :
    Cert.Chamfer.Finite x0 ∧ Cert.Chamfer.Finite x1 := by
  -- the result at its one index is the `and` of the two all-reduces; each all-reduce being 1 makes every compared
  -- entry 1, and an entry's comparison |x| < +∞ being 1 makes x a real
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt (x0 i) (Host.reduce_andi_all _ _ _ _ _ ha i)
  · exact real_of_abs_lt (x1 i) (Host.reduce_andi_all _ _ _ _ _ hb i)

end Cert.FiniteInputs

end
-- ==== Proof.lean ====
/-
  The Chamfer-distance kernel against its jnp reference: the certificate's five claims.

  Both programs take predicted points (argument 0) and ground truth (argument 1), eight clouds of 4096 points in
  three coordinates, and return one number: with D(b, a, j) the squared distance between ground-truth point a and
  predicted point j of batch b, the larger of the mean over j of min_a D and the mean over a of min_j D.

  The kernel forms D tile by tile as Σ_d (g − p)², takes each row's minimum at once and the columns' minima by a
  running minimum across the 16 tiles of a batch; the reference forms D as ‖g‖² + ‖p‖² − 2⟨g, p⟩ and reduces the whole
  table. Over the extended reals the running minimum through the tiles is the minimum over all rows, and the two
  arrangements of D agree when every input is a real number, which is what the precondition says: the law that joins
  them is `ring` over ℝ and fails at the infinities. Both means total their 8 · 4096 minima from the zero word and
  divide by the same word 32768, and both take the maximum in the same order.

  Frames: the kernel's program (at the word level and idealized) is run point by point in three control cases, the
  column accumulator carried by the region's invariant; the reference's is its straight run of host operations.
  The ideal pass rewrote nothing, so `preserves` is `True`.
-/
import proofs.«147637_j66271345377749_1_alg».proof.Defs
import proofs.«147637_j66271345377749_1_alg».proof.Proof.Gen.Kernel
import proofs.«147637_j66271345377749_1_alg».proof.Proof.Gen.KernelIdeal
import proofs.«147637_j66271345377749_1_alg».proof.Proof.Gen.ReferenceIdeal
import proofs.«147637_j66271345377749_1_alg».proof.Proof.Gen.Pre_finite_inputs
import proofs.«147637_j66271345377749_1_alg».proof.Proof.Gen.ReferenceIdeal.Run
import proofs.«147637_j66271345377749_1_alg».proof.Proof.Gen.ReferenceIdeal.Read
import proofs.«147637_j66271345377749_1_alg».proof.Proof.BitsSweep
import proofs.«147637_j66271345377749_1_alg».proof.Proof.IdealSweep
import proofs.«147637_j66271345377749_1_alg».proof.Proof.IdealValue
import proofs.«147637_j66271345377749_1_alg».proof.Proof.RefLoss
import proofs.«147637_j66271345377749_1_alg».proof.Proof.FiniteInputs
import proofs.«147637_j66271345377749_1_alg».proof.Proof.ChamferLaws

noncomputable section

namespace Cert.Proof

open Idealize.ShloMosaic Idealize.ShloMosaic.TcCoe Idealize.SL.Sem

/-- The word-level kernel runs to the end, faults nowhere and keeps its arguments. -/
theorem frame_kernel : Cert.frame_Kernel := fun m ρ _ => Cert.Kernel.Sweep.frame m ρ

/-- So does the idealized kernel. -/
theorem frame_kernelIdeal : Cert.frame_KernelIdeal := fun m ρ _ => Cert.KernelIdeal.Sweep.frame m ρ

/-- So does the reference: its run of host operations, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On finite inputs the kernel's loss of the squared differences is the reference's loss of the expanded
    distances: the two tables of distances are equal entry by entry. -/
theorem algebraic : Cert.algebraic_KernelIdeal_ReferenceIdeal := by
  intro m ρ m' ρ' hpre hagree
  refine ⟨fun c => fun _ => Cert.Chamfer.loss (Cert.Chamfer.sqDist
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))),
    Cert.KernelIdeal.ChamferValue.run m ρ, ?_⟩
  refine (θ_run Cert.ReferenceIdeal.defs _ _).mono (fun _ h c => ⟨?_, (h c).2.1, (h c).2.2⟩)
    (Cert.ReferenceIdeal.Value.run (F := Ideal) m' ρ')
  obtain ⟨hp, hg⟩ := Cert.FiniteInputs.of_pre _ _ (hpre c)
  rw [(h c).1, Cert.ReferenceIdeal.Read.val_main_v19_eq, Cert.ReferenceIdeal.RefLoss.result_eq, (hagree c).1, (hagree c).2,
    Cert.Chamfer.exDist_eq_sqDist _ _ hg hp]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
